-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S64x1024x256 .f32) (main_arg1 : FVec F S64x1024x256 .f32) (main_arg2 : FVec F S256x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S64x1024x256 : Shape := ⟨3, ![64, 1024, 256]⟩
abbrev S256x256 : Shape := ⟨2, ![256, 256]⟩
abbrev S64x256 : Shape := ⟨2, ![64, 256]⟩
abbrev S8x1024x256 : Shape := ⟨3, ![8, 1024, 256]⟩
abbrev S8x256 : Shape := ⟨2, ![8, 256]⟩
abbrev S1x1024x256 : Shape := ⟨3, ![1, 1024, 256]⟩
abbrev S1024x256 : Shape := ⟨2, ![1024, 256]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1 : Shape := ⟨1, ![1]⟩
abbrev S1x1 : Shape := ⟨2, ![1, 1]⟩
abbrev S1x256 : Shape := ⟨2, ![1, 256]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S64x256, .f32⟩
  | .hbm, ⟨4, _⟩ => ⟨S64x256, .f32⟩
  | .local _ .vmem, ⟨0, _⟩ => ⟨S8x1024x256, .f32⟩
  | .local _ .vmem, ⟨1, _⟩ => ⟨S8x1024x256, .f32⟩
  | .local _ .vmem, ⟨2, _⟩ => ⟨S8x1024x256, .f32⟩
  | .local _ .vmem, ⟨3, _⟩ => ⟨S256x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  reduces_S1x1024_S1 : S1x1024.Reduces [1] S1
  shapeCasts_S1_S1x1 : S1.ShapeCasts S1x1
  broadcasts_S1x1_S1x1024 : S1x1.Broadcasts S1x1024
  reduces_S1024x1_S1 : S1024x1.Reduces [0] S1
  broadcasts_S1x1_S1024x1 : S1x1.Broadcasts S1024x1
  broadcasts_S1024x1_S1024x256 : S1024x1.Broadcasts S1024x256
  reduces_S1024x256_S256 : S1024x256.Reduces [0] S256
  shapeCasts_S256_S1x256 : S256.ShapeCasts S1x256
  shapeCasts_S1x256_S256 : S1x256.ShapeCasts S256
  inb_S8x256_S1x256_0_0 : ∀ a, (![0, 0] : Fin 2 → Nat) a + S1x256.size a ≤ S8x256.size a
  h_S1x256 : 0 < S1x256.numel
  inb_S8x1024x256_S1x1024x256_1_0_0 : ∀ a, (![1, 0, 0] : Fin 3 → Nat) a + S1x1024x256.size a ≤ S8x1024x256.size a
  inb_S8x256_S1x256_1_0 : ∀ a, (![1, 0] : Fin 2 → Nat) a + S1x256.size a ≤ S8x256.size a
  inb_S8x1024x256_S1x1024x256_2_0_0 : ∀ a, (![2, 0, 0] : Fin 3 → Nat) a + S1x1024x256.size a ≤ S8x1024x256.size a
  inb_S8x256_S1x256_2_0 : ∀ a, (![2, 0] : Fin 2 → Nat) a + S1x256.size a ≤ S8x256.size a
  inb_S8x1024x256_S1x1024x256_3_0_0 : ∀ a, (![3, 0, 0] : Fin 3 → Nat) a + S1x1024x256.size a ≤ S8x1024x256.size a
  inb_S8x256_S1x256_3_0 : ∀ a, (![3, 0] : Fin 2 → Nat) a + S1x256.size a ≤ S8x256.size a
  inb_S8x1024x256_S1x1024x256_4_0_0 : ∀ a, (![4, 0, 0] : Fin 3 → Nat) a + S1x1024x256.size a ≤ S8x1024x256.size a
  inb_S8x256_S1x256_4_0 : ∀ a, (![4, 0] : Fin 2 → Nat) a + S1x256.size a ≤ S8x256.size a
  inb_S8x1024x256_S1x1024x256_5_0_0 : ∀ a, (![5, 0, 0] : Fin 3 → Nat) a + S1x1024x256.size a ≤ S8x1024x256.size a
  inb_S8x256_S1x256_5_0 : ∀ a, (![5, 0] : Fin 2 → Nat) a + S1x256.size a ≤ S8x256.size a
  inb_S8x1024x256_S1x1024x256_6_0_0 : ∀ a, (![6, 0, 0] : Fin 3 → Nat) a + S1x1024x256.size a ≤ S8x1024x256.size a
  inb_S8x256_S1x256_6_0 : ∀ a, (![6, 0] : Fin 2 → Nat) a + S1x256.size a ≤ S8x256.size a
  inb_S8x1024x256_S1x1024x256_7_0_0 : ∀ a, (![7, 0, 0] : Fin 3 → Nat) a + S1x1024x256.size a ≤ S8x1024x256.size a
  inb_S8x256_S1x256_7_0 : ∀ a, (![7, 0] : Fin 2 → Nat) a + S1x256.size a ≤ S8x256.size a
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1x1024_S1024x256_S1x256_1_0_0_1_n_n_wf : DotDims.WF S1x1024 S1024x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S64x1024x256.size a
  hwx0_0 : ∀ i : grid0.Coords, EltTy.bits .f32 = 32 ∨ (Rect.block (s := S64x1024x256) S8x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S64x1024x256.size a
  hwx0_1 : ∀ i : grid0.Coords, EltTy.bits .f32 = 32 ∨ (Rect.block (s := S64x1024x256) S8x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S64x256.size a
  hwx0_3 : ∀ i : grid0.Coords, EltTy.bits .f32 = 32 ∨ (Rect.block (s := S64x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S64x256.size a
  hwx0_4 : ∀ i : grid0.Coords, EltTy.bits .f32 = 32 ∨ (Rect.block (s := S64x256) S8x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩
abbrev S64x1024 : Shape := ⟨2, ![64, 1024]⟩
abbrev S64x1x1024 : Shape := ⟨3, ![64, 1, 1024]⟩
abbrev S64x1 : Shape := ⟨2, ![64, 1]⟩
abbrev S64x1x1 : Shape := ⟨3, ![64, 1, 1]⟩
abbrev S64x1x256 : Shape := ⟨3, ![64, 1, 256]⟩
abbrev S64x256 : Shape := ⟨2, ![64, 256]⟩

abbrev nBuf : Space → Nat
  | .hbm => 44
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S64x1024x256, .f32⟩
  | .hbm, ⟨4, _⟩ => ⟨S64x1024x1024, .f32⟩
  | .hbm, ⟨5, _⟩ => ⟨S64x1024x1024, .f32⟩
  | .hbm, ⟨6, _⟩ => ⟨S_, .f32⟩
  | .hbm, ⟨7, _⟩ => ⟨S64x1024, .f32⟩
  | .hbm, ⟨8, _⟩ => ⟨S64x1x1024, .f32⟩
  | .hbm, ⟨9, _⟩ => ⟨S_, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1x1, .f32⟩
  | .hbm, ⟨15, _⟩ => ⟨S64x1x1024, .f32⟩
  | .hbm, ⟨16, _⟩ => ⟨S64x1x1024, .f32⟩
  | .hbm, ⟨17, _⟩ => ⟨S64x1x1024, .f32⟩
  | .hbm, ⟨18, _⟩ => ⟨S_, .f32⟩
  | .hbm, ⟨19, _⟩ => ⟨S64x1, .f32⟩
  | .hbm, ⟨20, _⟩ => ⟨S64x1x1, .f32⟩
  | .hbm, ⟨21, _⟩ => ⟨S64x1x1024, .f32⟩
  | .hbm, ⟨22, _⟩ => ⟨S64x1x1024, .f32⟩
  | .hbm, ⟨23, _⟩ => ⟨S_, .f32⟩
  | .hbm, ⟨24, _⟩ => ⟨S64x1024, .f32⟩
  | .hbm, ⟨25, _⟩ => ⟨S64x1x1024, .f32⟩
  | .hbm, ⟨26, _⟩ => ⟨S_, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1x1, .f32⟩
  | .hbm, ⟨32, _⟩ => ⟨S64x1x1024, .f32⟩
  | .hbm, ⟨33, _⟩ => ⟨S64x1x1024, .f32⟩
  | .hbm, ⟨34, _⟩ => ⟨S64x1x1024, .f32⟩
  | .hbm, ⟨35, _⟩ => ⟨S_, .f32⟩
  | .hbm, ⟨36, _⟩ => ⟨S64x1, .f32⟩
  | .hbm, ⟨37, _⟩ => ⟨S64x1x1, .f32⟩
  | .hbm, ⟨38, _⟩ => ⟨S64x1x1024, .f32⟩
  | .hbm, ⟨39, _⟩ => ⟨S64x1x1024, .f32⟩
  | .hbm, ⟨40, _⟩ => ⟨S64x1x256, .f32⟩
  | .hbm, ⟨41, _⟩ => ⟨S64x256, .f32⟩
  | .hbm, ⟨42, _⟩ => ⟨S64x1x256, .f32⟩
  | .hbm, ⟨43, _⟩ => ⟨S64x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S64x1024x1024_S64x1024_d1 : S64x1024x1024.ReducesTo [1] S64x1024
  h_S_ : 0 < S_.numel
  bcast_S64x1024_S64x1x1024_0_2 : S64x1024.BroadcastsInDim S64x1x1024 (![0, 2] : Fin 2 → Fin S64x1x1024.rank)
  reducesTo_S64x1x1024_S64x1_d2 : S64x1x1024.ReducesTo [2] S64x1
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x1024_0_1_2 : S64x1x1.BroadcastsInDim S64x1x1024 (![0, 1, 2] : Fin 3 → Fin S64x1x1024.rank)
  reducesTo_S64x1024x1024_S64x1024_d2 : S64x1024x1024.ReducesTo [2] S64x1024
  shapeCasts_S64x1x256_S64x256 : S64x1x256.ShapeCasts S64x256
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]
  dot_S64x1x1024_S64x1024x256_S64x1x256_2_1_1_2_0_0_wf : DotDims.WF S64x1x1024 S64x1024x256 S64x1x256 [2] [1] [1] [2] [0] [0]

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf
def dot_S64x1x1024_S64x1024x256_S64x1x256_2_1_1_2_0_0 : DotDims S64x1x1024 S64x1024x256 S64x1x256 where
  lhsContracting := [2]
  rhsContracting := [1]
  lhsNonContracting := [1]
  rhsNonContracting := [2]
  lhsBatch := [0]
  rhsBatch := [0]
  wf := dot_S64x1x1024_S64x1024x256_S64x1x256_2_1_1_2_0_0_wf

class Facts : Prop extends Facts₀ where

variable [Facts]
-- ==== Proof.Spec.lean ====
/-
  Bilinear co-attention, as mathematics on the extended reals.

  For one batch element with queries q (L rows of D numbers), values v (L rows of D numbers) and a D × D weight w:
    score i j = tanh (Σ_e (Σ_d q i d · w d e) · v j e),
  the query-side weights are the softmax over i of (max over j of score i j), the value-side weights the softmax over j
  of (max over i of score i j), and the two results are the weighted sums of the rows of q and of v.
  Maxima are folded from −∞ and the softmax is written in its stabilised form (the maximum subtracted before the
  exponential), which is how both programs compute it; no law of the extended reals is needed to compare them.
-/
import Idealize.ShloMosaic.PureOps.Ideal
import Idealize.ShloMosaic.Lib.ValueIdx

noncomputable section

open scoped BigOperators

namespace CoAtt

open Idealize.ShloMosaic Idealize.ShloMosaic.ValueIdx

/-- The f32 word of −∞ as an extended real: the value every maximum below is folded from. -/
abbrev negInf : EReal := Ideal.ofBits .f32 0xFF800000#32

/-- The maximum of a finite family, folded from −∞. -/
def fmax {n : ℕ} (f : Fin n → EReal) : EReal := (Finset.univ : Finset (Fin n)).fold max negInf f

/-- The stabilised softmax of a finite family at k: exp (f k − M) / Σ exp (f k' − M), M the family's maximum. -/
def smax {n : ℕ} (f : Fin n → EReal) (k : Fin n) : EReal :=
  Ideal.div (Ideal.exp (f k - max negInf (fmax f))) (∑ k' : Fin n, Ideal.exp (f k' - max negInf (fmax f)))

variable {L D : ℕ}

/-- The bilinear score of query row i against value row j. -/
def score (q v : Fin L → Fin D → EReal) (w : Fin D → Fin D → EReal) (i j : Fin L) : EReal :=
  Ideal.tanh (∑ e : Fin D, (∑ d : Fin D, q i d * w d e) * v j e)

/-- The attended query: rows of q weighted by the softmax over i of the row maxima of the score. -/
def attQ (q v : Fin L → Fin D → EReal) (w : Fin D → Fin D → EReal) (d : Fin D) : EReal :=
  ∑ i : Fin L, smax (fun i' => fmax fun j => score q v w i' j) i * q i d

/-- The attended value: rows of v weighted by the softmax over j of the column maxima of the score. -/
def attV (q v : Fin L → Fin D → EReal) (w : Fin D → Fin D → EReal) (d : Fin D) : EReal :=
  ∑ j : Fin L, smax (fun j' => fmax fun i => score q v w i j') j * v j d

variable {B : ℕ}

/-- Batch element b of a [B, L, D] array, as L rows of D numbers. -/
abbrev rows (X : (⟨3, ![B, L, D]⟩ : Shape).Idx → EReal) (b : Fin B) : Fin L → Fin D → EReal := fun r e => X (ix3 b r e)

/-- A [D, D] array by coordinates. -/
abbrev mat (W : (⟨2, ![D, D]⟩ : Shape).Idx → EReal) : Fin D → Fin D → EReal := fun a e => W (ix2 a e)

/-- The attended queries of every batch element, as one [B, D] array. -/
def AttQ (Q V : (⟨3, ![B, L, D]⟩ : Shape).Idx → EReal) (W : (⟨2, ![D, D]⟩ : Shape).Idx → EReal) :
    (⟨2, ![B, D]⟩ : Shape).Idx → EReal := fun y => attQ (rows Q (y 0)) (rows V (y 0)) (mat W) (y 1)

/-- The attended values of every batch element, as one [B, D] array. -/
def AttV (Q V : (⟨3, ![B, L, D]⟩ : Shape).Idx → EReal) (W : (⟨2, ![D, D]⟩ : Shape).Idx → EReal) :
    (⟨2, ![B, D]⟩ : Shape).Idx → EReal := fun y => attV (rows Q (y 0)) (rows V (y 0)) (mat W) (y 1)

end CoAtt

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibDotRows.lean ====
/-
  A matrix product with the right operand transposed, read at an index, for any sizes, at the ideal values:
  [M, K] × [N, K] contracted on the second axis of both, into a zero accumulator, has at (p, q) the sum over k < K of
  A(p, k) · B(q, k) — the rows of A against the rows of B.
-/
import proofs.«130354_j44083544326830_1_alg».proof.Proof.LibOuterDot

noncomputable section

open scoped BigOperators

namespace Cert.LibDotRows

open Idealize.ShloMosaic Idealize.ShloMosaic.ValueIdx

/-- Rows against rows into the zero accumulator, given where the dimension numbers send the indices. -/
theorem matmul_zero_rows_of {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (i 1).val) (r1 : ∀ i q, (d.rhsIdx i q 1).val = (q ⟨0, by omega⟩).val)
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 q k := funext fun a => Fin.ext (by
    match a with
    | ⟨0, _⟩ => exact r0 _ _
    | ⟨1, _⟩ => exact (r1 _ _).trans hk)
  rw [el, er]

/-- Rows against rows — both operands contracted on their second axis, no batch axes — into the zero accumulator,
    read at (p, q): the sum over k < K of A(p, k) · B(q, k). -/
theorem matmul_zero_rows {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) :=
  matmul_zero_rows_of d hr hs
    (fun i q => Cert.LibOuterDot.lhs_free_val d 0 0 hlb hln rfl i q)
    (fun i q => d.lhsIdx_val_of_single hlc i q)
    (fun i q => Cert.LibOuterDot.rhs_free_val d 0 1 0 hlb hrb hln hrn rfl i q)
    (fun i q => d.rhsIdx_val_of_single hrc i q)
    prec A B p q

end Cert.LibDotRows

end
-- ==== Proof.LibRowCol.lean ====
/-
  Rows and columns of a matrix read at an index, for any sizes, at the ideal values.

  * A maximum or a sum taken over the rows (axis 0) of an [A, B] matrix, read at column j, is the fold of max from −∞,
    or the sum, over i < A of the entry (i, j); over the columns (axis 1), read at row i, over k < B of the entry (i, k).
    The host's reduce with a maximum body, and its float sum, read the same way.
  * A vector of A entries as a column [A, 1]; one number [1] as [1, 1]; one number [1, 1] repeated along a row [1, B]
    or a column [A, 1]; a column [A, 1] repeated across B columns.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowCol

open Idealize.ShloMosaic Idealize.ShloMosaic.ValueIdx

variable {A B : ℕ}

/-! ## Where a reduced index sits in the matrix -/

/-- Column j with row k put back is (k, j). -/
theorem lift_rows (h : (⟨2, ![A, B]⟩ : Shape).Reduces [0] (⟨1, ![B]⟩ : Shape)) (j : Fin B)
    (k : Fin ((⟨2, ![A, B]⟩ : Shape).size 0)) : h.lift (ix1 j) k = ix2 (⟨k.val, k.isLt⟩ : Fin A) j := by
  funext c; apply Fin.ext
  fin_cases c <;> rfl

/-- Row i with column k put back is (i, k). -/
theorem lift_cols (h : (⟨2, ![A, B]⟩ : Shape).Reduces [1] (⟨1, ![A]⟩ : Shape)) (i : Fin A)
    (k : Fin ((⟨2, ![A, B]⟩ : Shape).size 1)) : h.lift (ix1 i) k = ix2 i (⟨k.val, k.isLt⟩ : Fin B) := by
  funext c; apply Fin.ext
  fin_cases c <;> rfl

/-! ## The kernel's reductions -/

/-- The maximum over the rows, at column j: the fold of max from −∞ over the entries (i, j). -/
theorem max_rows (src : FVec Ideal ⟨2, ![A, B]⟩ .f32) (h : (⟨2, ![A, B]⟩ : Shape).Reduces [0] (⟨1, ![B]⟩ : Shape))
    (hφ : FKind.Formats .f32) (hacc : (0xFF800000#32 : BitVec FTy.f32.bits) = FKind.maximumf.neutral .f32 hφ) (j : Fin B) :
    multiReduction .maximumf [0] ⟨1, ![B]⟩ src 0xFF800000#32 h hφ hacc (ix1 j)
      = (Finset.univ : Finset (Fin A)).fold max (Ideal.ofBits .f32 0xFF800000#32) fun i => src (ix2 i j) := by
  rw [Ideal.multiReduction_maximumf_single]
  exact congrArg (fun f => Finset.fold max (Ideal.ofBits .f32 0xFF800000#32) f (Finset.univ : Finset (Fin A)))
    (funext fun k => congrArg src (lift_rows h j k))

/-- The maximum over the columns, at row i: the fold of max from −∞ over the entries (i, k). -/
theorem max_cols (src : FVec Ideal ⟨2, ![A, B]⟩ .f32) (h : (⟨2, ![A, B]⟩ : Shape).Reduces [1] (⟨1, ![A]⟩ : Shape))
    (hφ : FKind.Formats .f32) (hacc : (0xFF800000#32 : BitVec FTy.f32.bits) = FKind.maximumf.neutral .f32 hφ) (i : Fin A) :
    multiReduction .maximumf [1] ⟨1, ![A]⟩ src 0xFF800000#32 h hφ hacc (ix1 i)
      = (Finset.univ : Finset (Fin B)).fold max (Ideal.ofBits .f32 0xFF800000#32) fun k => src (ix2 i k) := by
  rw [Ideal.multiReduction_maximumf_single]
  exact congrArg (fun f => Finset.fold max (Ideal.ofBits .f32 0xFF800000#32) f (Finset.univ : Finset (Fin B)))
    (funext fun k => congrArg src (lift_cols h i k))

/-- The sum over the rows, at column j. -/
theorem sum_rows (src : FVec Ideal ⟨2, ![A, B]⟩ .f32) (h : (⟨2, ![A, B]⟩ : Shape).Reduces [0] (⟨1, ![B]⟩ : Shape))
    (hφ : FKind.Formats .f32) (hacc : (0x00000000#32 : BitVec FTy.f32.bits) = FKind.add.neutral .f32 hφ) (j : Fin B) :
    multiReduction .add [0] ⟨1, ![B]⟩ src 0x00000000#32 h hφ hacc (ix1 j) = ∑ i : Fin A, src (ix2 i j) := by
  rw [Ideal.multiReduction_add_single]
  exact Finset.sum_congr rfl fun k _ => congrArg src (lift_rows h j k)

/-- The sum over the columns, at row i. -/
theorem sum_cols (src : FVec Ideal ⟨2, ![A, B]⟩ .f32) (h : (⟨2, ![A, B]⟩ : Shape).Reduces [1] (⟨1, ![A]⟩ : Shape))
    (hφ : FKind.Formats .f32) (hacc : (0x00000000#32 : BitVec FTy.f32.bits) = FKind.add.neutral .f32 hφ) (i : Fin A) :
    multiReduction .add [1] ⟨1, ![A]⟩ src 0x00000000#32 h hφ hacc (ix1 i) = ∑ k : Fin B, src (ix2 i k) := by
  rw [Ideal.multiReduction_add_single]
  exact Finset.sum_congr rfl fun k _ => congrArg src (lift_cols h i k)

/-! ## Layout -/

variable {α : Type}

/-- A vector of A entries as a column [A, 1], read at (i, u): entry i. -/
theorem shapeCast_a_a1_apply (x : (⟨1, ![A]⟩ : Shape).Idx → α) (h : (⟨1, ![A]⟩ : Shape).ShapeCasts ⟨2, ![A, 1]⟩)
    (i : Fin A) (u : Fin 1) : shapeCast ⟨2, ![A, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One number [1, 1] repeated along a row [1, B], read anywhere: that number. -/
theorem broadcastTo_11_1b_apply (x : (⟨2, ![1, 1]⟩ : Shape).Idx → α) (h : (⟨2, ![1, 1]⟩ : Shape).Broadcasts ⟨2, ![1, B]⟩)
    (u : Fin 1) (k : Fin B) : broadcastTo ⟨2, ![1, B]⟩ x h (ix2 u k) = x (ix2 (0 : Fin 1) (0 : Fin 1)) := by
  refine broadcastTo_apply x h (ix2 u k) (ix2 (0 : Fin 1) (0 : Fin 1)) fun ax => ?_
  match ax with
  | ⟨0, _⟩ => show 0 = if (1 : ℕ) = 1 then 0 else _; rw [if_pos rfl]
  | ⟨1, _⟩ => show 0 = if (1 : ℕ) = 1 then 0 else _; rw [if_pos rfl]

/-- One number [1, 1] repeated along a column [A, 1], read anywhere: that number. -/
theorem broadcastTo_11_a1_apply (x : (⟨2, ![1, 1]⟩ : Shape).Idx → α) (h : (⟨2, ![1, 1]⟩ : Shape).Broadcasts ⟨2, ![A, 1]⟩)
    (i : Fin A) (u : Fin 1) : broadcastTo ⟨2, ![A, 1]⟩ x h (ix2 i u) = x (ix2 (0 : Fin 1) (0 : Fin 1)) := by
  refine broadcastTo_apply x h (ix2 i u) (ix2 (0 : Fin 1) (0 : Fin 1)) fun ax => ?_
  match ax with
  | ⟨0, _⟩ => show 0 = if (1 : ℕ) = 1 then 0 else _; rw [if_pos rfl]
  | ⟨1, _⟩ => show 0 = if (1 : ℕ) = 1 then 0 else _; rw [if_pos rfl]

/-- A column [A, 1] repeated across B columns, read at (i, d): the column's entry i. -/
theorem broadcastTo_a1_ab_apply (x : (⟨2, ![A, 1]⟩ : Shape).Idx → α) (h : (⟨2, ![A, 1]⟩ : Shape).Broadcasts ⟨2, ![A, B]⟩)
    (i : Fin A) (d : Fin B) : broadcastTo ⟨2, ![A, B]⟩ x h (ix2 i d) = x (ix2 i (0 : Fin 1)) := by
  refine broadcastTo_apply x h (ix2 i d) (ix2 i (0 : Fin 1)) fun ax => ?_
  match ax with
  | ⟨0, _⟩ =>
    show i.val = if A = 1 then 0 else i.val
    split
    · have := i.isLt; omega
    · rfl
  | ⟨1, _⟩ => show 0 = if (1 : ℕ) = 1 then 0 else _; rw [if_pos rfl]

end Cert.LibRowCol

end
-- ==== Proof.KernelRows.lean ====
/-
  The kernel treats its block of eight batch elements one after the other, by the same operations each time. What it
  stores for batch element 0 is taken as the model: for each of the other seven the stored row, as a term of the
  weight block and of that element's query and value rows, is the same term.
-/
import proofs.«130354_j44083544326830_1_alg».proof.Proof.Gen.KernelIdeal.Skeleton

noncomputable section

namespace Cert.KernelIdeal.RowValue

open Cert.KernelIdeal Cert.KernelIdeal.Gen Idealize.ShloMosaic

variable {F : FTy → Type} [FloatOps F]

/-- The attended-query row the kernel stores for one batch element, from the weight block and the element's rows. -/
abbrev rowQ (w : Vec F S256x256 .f32) (q v : Vec F S1x1024x256 .f32) : FVec F S1x256 .f32 :=
  k0_pay8 (k0_pay3 q) (k0_pay6 w q v)

/-- The attended-value row the kernel stores for one batch element. -/
abbrev rowV (w : Vec F S256x256 .f32) (q v : Vec F S1x1024x256 .f32) : FVec F S1x256 .f32 :=
  k0_pay9 (k0_pay7 w q v)

variable (w : Vec F S256x256 .f32) (q v : Vec F S1x1024x256 .f32)

theorem rowQ_1 : k0_pay16 (k0_pay10 q) (k0_pay13 (k0_pay2 w) q v) (k0_pay15 (k0_pay2 w) q v) (Scalar.ofBits .f32 0xFF800000#32)
    = rowQ w q v := rfl
theorem rowQ_2 : k0_pay24 (k0_pay18 q) (k0_pay22 (k0_pay2 w) q v) = rowQ w q v := rfl
theorem rowQ_3 : k0_pay30 (k0_pay2 w) (k0_pay26 q) (k0_pay27 q) (k0_pay28 v) (constant S1024x256 .f32 0x00000000#32)
    = rowQ w q v := rfl
theorem rowQ_4 : k0_pay37 (k0_pay36 (k0_pay2 w) q v) = rowQ w q v := rfl
theorem rowQ_5 : k0_pay45 (k0_pay39 q) (k0_pay42 (k0_pay2 w) q v) (k0_pay44 (k0_pay2 w) q v) = rowQ w q v := rfl
theorem rowQ_6 : k0_pay53 (k0_pay47 q) (k0_pay51 (k0_pay2 w) q v) = rowQ w q v := rfl
theorem rowQ_7 : k0_pay59 (k0_pay55 q) (k0_pay57 (k0_pay2 w) q v) = rowQ w q v := rfl

theorem rowV_1 : k0_pay17 (k0_pay11 v) (k0_pay14 (k0_pay2 w) q v) = rowV w q v := rfl
theorem rowV_2 : k0_pay25 (k0_pay19 v) (k0_pay21 (k0_pay2 w) q v) (k0_pay23 (k0_pay2 w) q v) (Scalar.ofBits .f32 0xFF800000#32)
    = rowV w q v := rfl
theorem rowV_3 : k0_pay31 (k0_pay2 w) (k0_pay27 q) (k0_pay28 v) (constant S1024x256 .f32 0x00000000#32) = rowV w q v := rfl
theorem rowV_4 : k0_pay38 (k0_pay35 (k0_pay2 w) q v) = rowV w q v := rfl
theorem rowV_5 : k0_pay46 (k0_pay40 v) (k0_pay43 (k0_pay2 w) q v) = rowV w q v := rfl
theorem rowV_6 : k0_pay54 (k0_pay48 v) (k0_pay50 (k0_pay2 w) q v) (k0_pay52 (k0_pay2 w) q v) = rowV w q v := rfl
theorem rowV_7 : k0_pay1 (k0_pay60 (k0_pay56 v) (k0_pay57 (k0_pay2 w) q v)) = rowV w q v := rfl

end Cert.KernelIdeal.RowValue

end
-- ==== Proof.KernelScore.lean ====
/-
  The score the kernel forms for one batch element, read at an index, at the ideal values.

  From the element's query rows q and value rows v (each 1024 rows of 256 numbers) and the weight block w the kernel
  forms q·w, then (q·w)·vᵀ, and takes tanh. A change of float format is the identity at the ideal values, so the narrowed
  operands of the two matrix products are the operands themselves; a product into the zero accumulator is the plain sum
  of products. So entry (i, j) is tanh (Σ_e (Σ_d q i d · w d e) · v j e).
-/
import proofs.«130354_j44083544326830_1_alg».proof.Proof.Gen.KernelIdeal.Skeleton
import proofs.«130354_j44083544326830_1_alg».proof.Proof.Spec
import proofs.«130354_j44083544326830_1_alg».proof.Proof.LibOuterDot
import proofs.«130354_j44083544326830_1_alg».proof.Proof.LibDotRows
import proofs.«130354_j44083544326830_1_alg».proof.Proof.LibRowCol
import proofs.«130354_j44083544326830_1_alg».proof.Proof.KernelRows

noncomputable section

open scoped BigOperators

namespace Cert.KernelIdeal.RowValue

open Cert.KernelIdeal Cert.KernelIdeal.Gen Idealize.ShloMosaic Idealize.ShloMosaic.ValueIdx
open Cert.LibRowCol

variable (w : Vec Ideal S256x256 .f32) (q v : Vec Ideal S1x1024x256 .f32)

/-- The element's query rows, by coordinates. -/
abbrev qr : Fin 1024 → Fin 256 → EReal := fun r e => q (ix3 (0 : Fin 1) r e)
/-- The element's value rows, by coordinates. -/
abbrev vr : Fin 1024 → Fin 256 → EReal := fun r e => v (ix3 (0 : Fin 1) r e)
/-- The weight block, by coordinates. -/
abbrev wm : Fin 256 → Fin 256 → EReal := fun a e => w (ix2 a e)

/-- The query rows with the leading unit axis dropped. -/
theorem qrows_apply (i : Fin 1024) (d : Fin 256) : k0_pay3 q (ix2 i d) = q (ix3 (0 : Fin 1) i d) :=
  shapeCast_1ab_ab_apply q _ i d

/-- The value rows with the leading unit axis dropped (and narrowed, which changes nothing). -/
theorem vrows_apply (j : Fin 1024) (e : Fin 256) : k0_pay4 v (ix2 j e) = v (ix3 (0 : Fin 1) j e) :=
  shapeCast_1ab_ab_apply v _ j e

/-- The score of query row i against value row j. -/
theorem score_apply (i j : Fin 1024) :
    k0_pay5 w q v (ix2 i j) = CoAtt.score (qr q) (vr v) (wm w) i j := by
  unfold k0_pay5
  show Ideal.tanh (matmul (F := Ideal) dot_S1024x256_S1024x256_S1024x1024_1_1_0_0_n_n none _ _ (constant S1024x1024 .f32 0x00000000#32) (ix2 i j)) = _
  rw [Cert.LibDotRows.matmul_zero_rows _ rfl rfl rfl rfl rfl rfl rfl rfl]
  unfold CoAtt.score
  refine congrArg Ideal.tanh (Finset.sum_congr rfl fun e _ => ?_)
  refine congrArg₂ (· * ·) ?_ (vrows_apply v j e)
  show matmul (F := Ideal) dot_S1024x256_S256x256_S1024x256_1_0_0_1_n_n none _ _ (constant S1024x256 .f32 0x00000000#32) (ix2 i e) = _
  rw [Cert.LibOuterDot.matmul_zero_ix2 _ rfl rfl rfl rfl rfl rfl rfl rfl]
  refine Finset.sum_congr rfl fun d _ => ?_
  exact congrArg₂ (· * ·) (qrows_apply q i d) rfl

end Cert.KernelIdeal.RowValue

end
-- ==== Proof.KernelSoftmax.lean ====
/-
  The kernel's two softmaxes, read at an index, at the ideal values: down a column of 1024 numbers and along a row of
  1024 numbers. Each subtracts the family's maximum (folded from −∞, then once more joined with −∞, which changes
  nothing), exponentiates, and divides by the sum of the exponentials.
-/
import proofs.«130354_j44083544326830_1_alg».proof.Proof.Gen.KernelIdeal.Skeleton
import proofs.«130354_j44083544326830_1_alg».proof.Proof.Spec
import proofs.«130354_j44083544326830_1_alg».proof.Proof.LibRowCol

noncomputable section

open scoped BigOperators

namespace Cert.KernelIdeal.RowValue

open Cert.KernelIdeal Cert.KernelIdeal.Gen Idealize.ShloMosaic Idealize.ShloMosaic.ValueIdx
open Cert.LibRowCol

/-- A column of 1024 numbers with its maximum subtracted, exponentiated. -/
def colShift (c : FVec Ideal S1024x1 .f32) : FVec Ideal S1024x1 .f32 :=
  exp (subf c (broadcastTo S1024x1 (shapeCast S1x1 (maximumf (broadcast S1 (Scalar.ofBits .f32 0xFF800000#32))
    (multiReduction .maximumf [0] S1 c 0xFF800000#32 reduces_S1024x1_S1 (.inl rfl) rfl)) shapeCasts_S1_S1x1) broadcasts_S1x1_S1024x1))

/-- The kernel's softmax down a column of 1024 numbers. -/
def colSoftmax (c : FVec Ideal S1024x1 .f32) : FVec Ideal S1024x1 .f32 :=
  divf (colShift c) (broadcastTo S1024x1 (shapeCast S1x1
    (multiReduction .add [0] S1 (colShift c) 0x00000000#32 reduces_S1024x1_S1 (.inl rfl) rfl) shapeCasts_S1_S1x1) broadcasts_S1x1_S1024x1)

/-- A row of 1024 numbers with its maximum subtracted, exponentiated. -/
def rowShift (r : FVec Ideal S1x1024 .f32) : FVec Ideal S1x1024 .f32 :=
  exp (subf r (broadcastTo S1x1024 (shapeCast S1x1 (maximumf (broadcast S1 (Scalar.ofBits .f32 0xFF800000#32))
    (multiReduction .maximumf [1] S1 r 0xFF800000#32 reduces_S1x1024_S1 (.inl rfl) rfl)) shapeCasts_S1_S1x1) broadcasts_S1x1_S1x1024))

/-- The kernel's softmax along a row of 1024 numbers. -/
def rowSoftmax (r : FVec Ideal S1x1024 .f32) : FVec Ideal S1x1024 .f32 :=
  divf (rowShift r) (broadcastTo S1x1024 (shapeCast S1x1
    (multiReduction .add [1] S1 (rowShift r) 0x00000000#32 reduces_S1x1024_S1 (.inl rfl) rfl) shapeCasts_S1_S1x1) broadcasts_S1x1_S1x1024)

section Softmax

variable (M : Fin 1024 → EReal)

theorem colShift_apply (c : FVec Ideal S1024x1 .f32) (hM : ∀ i, c (ix2 i (0 : Fin 1)) = M i) (i : Fin 1024) :
    colShift c (ix2 i (0 : Fin 1)) = Ideal.exp (M i - max CoAtt.negInf (CoAtt.fmax M)) := by
  unfold colShift
  show Ideal.exp (c (ix2 i (0 : Fin 1)) - broadcastTo S1024x1 _ broadcasts_S1x1_S1024x1 (ix2 i (0 : Fin 1))) = _
  refine congrArg Ideal.exp (congrArg₂ (· - ·) (hM i) ?_)
  refine (broadcastTo_11_a1_apply _ _ i (0 : Fin 1)).trans ((shapeCast_a_1a_apply _ _ (0 : Fin 1) (0 : Fin 1)).trans ?_)
  show max CoAtt.negInf (multiReduction (F := Ideal) .maximumf [0] S1 c 0xFF800000#32 reduces_S1024x1_S1 (.inl rfl) rfl (ix1 (0 : Fin 1))) = _
  refine congrArg (max CoAtt.negInf) ((max_rows c reduces_S1024x1_S1 _ _ (0 : Fin 1)).trans ?_)
  unfold CoAtt.fmax
  exact congrArg (fun f => Finset.fold max (Ideal.ofBits .f32 0xFF800000#32) f (Finset.univ : Finset (Fin 1024))) (funext hM)

theorem colSoftmax_apply (c : FVec Ideal S1024x1 .f32) (hM : ∀ i, c (ix2 i (0 : Fin 1)) = M i) (i : Fin 1024) :
    colSoftmax c (ix2 i (0 : Fin 1)) = CoAtt.smax M i := by
  unfold colSoftmax CoAtt.smax
  show Ideal.div (colShift c (ix2 i (0 : Fin 1))) (broadcastTo S1024x1 _ broadcasts_S1x1_S1024x1 (ix2 i (0 : Fin 1))) = _
  refine congrArg₂ Ideal.div (colShift_apply M c hM i) ?_
  refine (broadcastTo_11_a1_apply _ _ i (0 : Fin 1)).trans ((shapeCast_a_1a_apply _ _ (0 : Fin 1) (0 : Fin 1)).trans ?_)
  refine (sum_rows (colShift c) reduces_S1024x1_S1 _ _ (0 : Fin 1)).trans ?_
  exact Finset.sum_congr rfl fun k _ => colShift_apply M c hM k

theorem rowShift_apply (r : FVec Ideal S1x1024 .f32) (hM : ∀ k, r (ix2 (0 : Fin 1) k) = M k) (k : Fin 1024) :
    rowShift r (ix2 (0 : Fin 1) k) = Ideal.exp (M k - max CoAtt.negInf (CoAtt.fmax M)) := by
  unfold rowShift
  show Ideal.exp (r (ix2 (0 : Fin 1) k) - broadcastTo S1x1024 _ broadcasts_S1x1_S1x1024 (ix2 (0 : Fin 1) k)) = _
  refine congrArg Ideal.exp (congrArg₂ (· - ·) (hM k) ?_)
  refine (broadcastTo_11_1b_apply _ _ (0 : Fin 1) k).trans ((shapeCast_a_1a_apply _ _ (0 : Fin 1) (0 : Fin 1)).trans ?_)
  show max CoAtt.negInf (multiReduction (F := Ideal) .maximumf [1] S1 r 0xFF800000#32 reduces_S1x1024_S1 (.inl rfl) rfl (ix1 (0 : Fin 1))) = _
  refine congrArg (max CoAtt.negInf) ((max_cols r reduces_S1x1024_S1 _ _ (0 : Fin 1)).trans ?_)
  unfold CoAtt.fmax
  exact congrArg (fun f => Finset.fold max (Ideal.ofBits .f32 0xFF800000#32) f (Finset.univ : Finset (Fin 1024))) (funext hM)

theorem rowSoftmax_apply (r : FVec Ideal S1x1024 .f32) (hM : ∀ k, r (ix2 (0 : Fin 1) k) = M k) (k : Fin 1024) :
    rowSoftmax r (ix2 (0 : Fin 1) k) = CoAtt.smax M k := by
  unfold rowSoftmax CoAtt.smax
  show Ideal.div (rowShift r (ix2 (0 : Fin 1) k)) (broadcastTo S1x1024 _ broadcasts_S1x1_S1x1024 (ix2 (0 : Fin 1) k)) = _
  refine congrArg₂ Ideal.div (rowShift_apply M r hM k) ?_
  refine (broadcastTo_11_1b_apply _ _ (0 : Fin 1) k).trans ((shapeCast_a_1a_apply _ _ (0 : Fin 1) (0 : Fin 1)).trans ?_)
  refine (sum_cols (rowShift r) reduces_S1x1024_S1 _ _ (0 : Fin 1)).trans ?_
  exact Finset.sum_congr rfl fun k' _ => rowShift_apply M r hM k'

end Softmax

end Cert.KernelIdeal.RowValue

end
-- ==== Proof.KernelRowValue.lean ====
/-
  What the kernel stores for one batch element, read at an index, at the ideal values.

  The maxima of the score along each axis feed the two softmaxes; the attended-query row is the sum over the query rows
  of weight times row, taken as a reduction over the rows of a broadcast product; the attended-value row is the product
  of the row of weights with the value rows, into the zero accumulator.
-/
import proofs.«130354_j44083544326830_1_alg».proof.Proof.KernelScore
import proofs.«130354_j44083544326830_1_alg».proof.Proof.KernelSoftmax

noncomputable section

open scoped BigOperators

namespace Cert.KernelIdeal.RowValue

open Cert.KernelIdeal Cert.KernelIdeal.Gen Idealize.ShloMosaic Idealize.ShloMosaic.ValueIdx
open Cert.LibRowCol

variable (w : Vec Ideal S256x256 .f32) (q v : Vec Ideal S1x1024x256 .f32)

/-- The maxima of the score over the value rows, as a column. -/
theorem rowmax_apply (i : Fin 1024) :
    shapeCast S1024x1 (multiReduction (F := Ideal) .maximumf [1] S1024 (k0_pay5 w q v) 0xFF800000#32 reduces_S1024x1024_S1024_2 (.inl rfl) rfl)
        shapeCasts_S1024_S1024x1 (ix2 i (0 : Fin 1))
      = CoAtt.fmax fun j => CoAtt.score (qr q) (vr v) (wm w) i j := by
  refine (shapeCast_a_a1_apply _ _ i (0 : Fin 1)).trans ((max_cols (k0_pay5 w q v) reduces_S1024x1024_S1024_2 _ _ i).trans ?_)
  unfold CoAtt.fmax
  exact congrArg (fun f => Finset.fold max (Ideal.ofBits .f32 0xFF800000#32) f (Finset.univ : Finset (Fin 1024)))
    (funext fun j => score_apply w q v i j)

/-- The maxima of the score over the query rows, as a row. -/
theorem colmax_apply (j : Fin 1024) :
    shapeCast S1x1024 (multiReduction (F := Ideal) .maximumf [0] S1024 (k0_pay5 w q v) 0xFF800000#32 reduces_S1024x1024_S1024 (.inl rfl) rfl)
        shapeCasts_S1024_S1x1024 (ix2 (0 : Fin 1) j)
      = CoAtt.fmax fun i => CoAtt.score (qr q) (vr v) (wm w) i j := by
  refine (shapeCast_a_1a_apply _ _ (0 : Fin 1) j).trans ((max_rows (k0_pay5 w q v) reduces_S1024x1024_S1024 _ _ j).trans ?_)
  unfold CoAtt.fmax
  exact congrArg (fun f => Finset.fold max (Ideal.ofBits .f32 0xFF800000#32) f (Finset.univ : Finset (Fin 1024)))
    (funext fun i => score_apply w q v i j)

/-- The query-side weights are the kernel's column softmax of the row maxima. -/
theorem k0_pay6_eq : k0_pay6 w q v = colSoftmax (shapeCast S1024x1
    (multiReduction (F := Ideal) .maximumf [1] S1024 (k0_pay5 w q v) 0xFF800000#32 reduces_S1024x1024_S1024_2 (.inl rfl) rfl) shapeCasts_S1024_S1024x1) := rfl

theorem weightQ_apply (i : Fin 1024) :
    k0_pay6 w q v (ix2 i (0 : Fin 1)) = CoAtt.smax (fun i' => CoAtt.fmax fun j => CoAtt.score (qr q) (vr v) (wm w) i' j) i := by
  rw [k0_pay6_eq]
  exact colSoftmax_apply _ _ (rowmax_apply w q v) i

/-- A vector laid as a row, flattened and laid as a row again, read at (0, d): entry d. -/
theorem cast3 {α : Type} (x : S256.Idx → α) (d : Fin 256) :
    shapeCast S1x256 (shapeCast S256 (shapeCast S1x256 x shapeCasts_S256_S1x256) shapeCasts_S1x256_S256) shapeCasts_S256_S1x256
      (ix2 (0 : Fin 1) d) = x (ix1 d) := by
  rw [shapeCast_shapeCast]
  exact shapeCast_a_1a_apply x _ (0 : Fin 1) d

/-- A row flattened and laid as a row again is itself. -/
theorem cast2 {α : Type} (x : S1x256.Idx → α) :
    shapeCast S1x256 (shapeCast S256 x shapeCasts_S1x256_S256) shapeCasts_S256_S1x256 = x :=
  shapeCast_shapeCast x _ _

/-- The stored attended-query row, spelt out: the weights repeated across the columns, times the query rows, summed
    over the rows, and re-laid as a row. -/
theorem rowQ_eq : rowQ w q v = shapeCast S1x256 (shapeCast S256 (shapeCast S1x256
    (multiReduction (F := Ideal) .add [0] S256 (mulf (broadcastTo S1024x256 (k0_pay6 w q v) broadcasts_S1024x1_S1024x256) (k0_pay3 q))
      0x00000000#32 reduces_S1024x256_S256 (.inl rfl) rfl) shapeCasts_S256_S1x256) shapeCasts_S1x256_S256) shapeCasts_S256_S1x256 := rfl

/-- The attended-query row: the rows of q weighted and summed. -/
theorem rowQ_apply (d : Fin 256) : rowQ w q v (ix2 (0 : Fin 1) d) = CoAtt.attQ (qr q) (vr v) (wm w) d := by
  unfold CoAtt.attQ
  refine (congrFun (rowQ_eq w q v) (ix2 (0 : Fin 1) d)).trans ?_
  refine (cast3 _ d).trans ((sum_rows _ reduces_S1024x256_S256 _ _ d).trans ?_)
  refine Finset.sum_congr rfl fun i _ => ?_
  refine (mulf_apply _ _ (ix2 i d)).trans ?_
  exact congrArg₂ (· * ·) ((broadcastTo_a1_ab_apply _ _ i d).trans (weightQ_apply w q v i)) (qrows_apply q i d)

/-- The value-side weights, before the product with the value rows. -/
theorem k0_pay7_eq : k0_pay7 w q v = matmul (F := Ideal) dot_S1x1024_S1024x256_S1x256_1_0_0_1_n_n none
    (truncf .bf16 (rowSoftmax (shapeCast S1x1024
      (multiReduction (F := Ideal) .maximumf [0] S1024 (k0_pay5 w q v) 0xFF800000#32 reduces_S1024x1024_S1024 (.inl rfl) rfl) shapeCasts_S1024_S1x1024))
      bitsLt_bf16_f32) (k0_pay4 v) (constant S1x256 .f32 0x00000000#32) := rfl

/-- The attended-value row: the rows of v weighted and summed. -/
theorem rowV_apply (d : Fin 256) : rowV w q v (ix2 (0 : Fin 1) d) = CoAtt.attV (qr q) (vr v) (wm w) d := by
  unfold CoAtt.attV
  refine (congrFun (cast2 (k0_pay7 w q v)) (ix2 (0 : Fin 1) d)).trans ?_
  rw [k0_pay7_eq]
  refine (Cert.LibOuterDot.matmul_zero_ix2 dot_S1x1024_S1024x256_S1x256_1_0_0_1_n_n rfl rfl rfl rfl rfl rfl rfl rfl none _ _
    (0 : Fin 1) d).trans ?_
  refine Finset.sum_congr rfl fun j _ => ?_
  refine congrArg₂ (· * ·) ((truncf_apply (ψ := .bf16) _ bitsLt_bf16_f32 (ix2 (0 : Fin 1) j)).trans ?_) (vrows_apply v j d)
  exact rowSoftmax_apply _ _ (colmax_apply w q v) j

end Cert.KernelIdeal.RowValue

end
-- ==== Proof.KernelBlock.lean ====
/-
  What one grid point leaves in its two output blocks, at the ideal values.

  A point holds eight batch elements: a block x0 of their query rows, a block x1 of their value rows, and the whole
  weight x2. Row b of the first output block is stored from the rows of batch element b alone, and is the attended
  query of that element; likewise the second block and the attended values. The eight stored rows tile the block, so
  the block is the [8, 256] array of attended queries (values) of the eight elements.
-/
import proofs.«130354_j44083544326830_1_alg».proof.Proof.Gen.KernelIdeal.Frame
import proofs.«130354_j44083544326830_1_alg».proof.Proof.KernelRowValue

noncomputable section

open scoped BigOperators

namespace Cert.KernelIdeal.BlockValue

open Cert.KernelIdeal Cert.KernelIdeal.Gen Cert.KernelIdeal.RowValue Idealize.ShloMosaic Idealize.ShloMosaic.ValueIdx

variable (x0 x1 : Vec Ideal S8x1024x256 .f32) (x2 : Vec Ideal S256x256 .f32)

/-- The rows of batch element b, loaded through the rectangle that starts at (b, 0, 0). -/
theorem ld_row (x : Vec Ideal S8x1024x256 .f32) (o : ℕ)
    (inb : ∀ a, (![o, 0, 0] : Fin 3 → ℕ) a + S1x1024x256.size a ≤ S8x1024x256.size a) (b : Fin 8) (hb : b.val = o)
    (r : Fin 1024) (e : Fin 256) :
    View.ld x (Rect.unit (s := S8x1024x256) ![o, 0, 0] S1x1024x256.size inb) (ix3 (0 : Fin 1) r e) = x (ix3 b r e) := by
  show x _ = x _
  refine congrArg x (funext fun a => Fin.ext ?_)
  match a with
  | ⟨0, _⟩ => show o + 1 * 0 = b.val; omega
  | ⟨1, _⟩ => show 0 + 1 * r.val = r.val; omega
  | ⟨2, _⟩ => show 0 + 1 * e.val = e.val; omega

/-- Entry d of the row stored at (b, 0) sits at (b, d) of the output block. -/
theorem emb_row (o : ℕ) (inb : ∀ a, (![o, 0] : Fin 2 → ℕ) a + S1x256.size a ≤ S8x256.size a) (b : Fin 8) (hb : b.val = o)
    (d : Fin 256) : (Rect.unit (s := S8x256) ![o, 0] S1x256.size inb).emb (ix2 (0 : Fin 1) d) = ix2 b d := by
  refine funext fun a => Fin.ext ?_
  match a with
  | ⟨0, _⟩ => show o + 1 * 0 = b.val; omega
  | ⟨1, _⟩ => show 0 + 1 * d.val = d.val; omega

/-- The weight is loaded whole. -/
theorem ld_w (inb : ∀ a, (![0, 0] : Fin 2 → ℕ) a + S256x256.size a ≤ S256x256.size a) :
    View.ld x2 (Rect.unit (s := S256x256) ![0, 0] S256x256.size inb) = x2 :=
  View.ld_unit_zero (funext fun a => by match a with | ⟨0, _⟩ => rfl | ⟨1, _⟩ => rfl) inb x2

section Piece

variable (o : ℕ) (b : Fin 8) (hb : b.val = o)
  (inbq : ∀ a, (![o, 0, 0] : Fin 3 → ℕ) a + S1x1024x256.size a ≤ S8x1024x256.size a)
  (inbo : ∀ a, (![o, 0] : Fin 2 → ℕ) a + S1x256.size a ≤ S8x256.size a)
  (inbw : ∀ a, (![0, 0] : Fin 2 → ℕ) a + S256x256.size a ≤ S256x256.size a)

include hb

theorem qrows_eq : qr (View.ld x0 (Rect.unit (s := S8x1024x256) ![o, 0, 0] S1x1024x256.size inbq)) = CoAtt.rows x0 b :=
  funext fun r => funext fun e => ld_row x0 o inbq b hb r e

theorem vrows_eq : vr (View.ld x1 (Rect.unit (s := S8x1024x256) ![o, 0, 0] S1x1024x256.size inbq)) = CoAtt.rows x1 b :=
  funext fun r => funext fun e => ld_row x1 o inbq b hb r e

omit hb in
theorem w_eq : wm (View.ld x2 (Rect.unit (s := S256x256) ![0, 0] S256x256.size inbw)) = CoAtt.mat x2 := by
  rw [ld_w x2 inbw]

/-- The row stored for batch element b is row b of the attended queries. -/
theorem pieceQ (x : S1x256.Idx) :
    rowQ (View.ld x2 (Rect.unit (s := S256x256) ![0, 0] S256x256.size inbw))
        (View.ld x0 (Rect.unit (s := S8x1024x256) ![o, 0, 0] S1x1024x256.size inbq))
        (View.ld x1 (Rect.unit (s := S8x1024x256) ![o, 0, 0] S1x1024x256.size inbq)) x
      = CoAtt.AttQ x0 x1 x2 ((Rect.unit (s := S8x256) ![o, 0] S1x256.size inbo).emb x) := by
  obtain ⟨u, d, rfl⟩ : ∃ (u : Fin 1) (d : Fin 256), x = ix2 u d := ⟨x 0, x 1, eq_ix2 x⟩
  obtain rfl : u = 0 := Subsingleton.elim _ _
  refine (rowQ_apply _ _ _ d).trans ?_
  rw [emb_row o inbo b hb d, qrows_eq x0 o b hb inbq, vrows_eq x1 o b hb inbq, w_eq x2 inbw]
  rfl

/-- The row stored for batch element b is row b of the attended values. -/
theorem pieceV (x : S1x256.Idx) :
    rowV (View.ld x2 (Rect.unit (s := S256x256) ![0, 0] S256x256.size inbw))
        (View.ld x0 (Rect.unit (s := S8x1024x256) ![o, 0, 0] S1x1024x256.size inbq))
        (View.ld x1 (Rect.unit (s := S8x1024x256) ![o, 0, 0] S1x1024x256.size inbq)) x
      = CoAtt.AttV x0 x1 x2 ((Rect.unit (s := S8x256) ![o, 0] S1x256.size inbo).emb x) := by
  obtain ⟨u, d, rfl⟩ : ∃ (u : Fin 1) (d : Fin 256), x = ix2 u d := ⟨x 0, x 1, eq_ix2 x⟩
  obtain rfl : u = 0 := Subsingleton.elim _ _
  refine (rowV_apply _ _ _ d).trans ?_
  rw [emb_row o inbo b hb d, qrows_eq x0 o b hb inbq, vrows_eq x1 o b hb inbq, w_eq x2 inbw]
  rfl

end Piece

/-- The first output block after the body: the attended queries of the point's eight batch elements. -/
theorem out3_eq : out0_3 x0 x1 x2 = CoAtt.AttQ x0 x1 x2 := by
  funext y
  unfold out0_3
  refine View.canon_apply_of_pieces (Val := Elt Ideal) (CoAtt.AttQ x0 x1 x2) _ ?_ y (cover0_3 _ _ _ _ _ _ _ _ y)
  intro p hp x
  simp only [List.mem_cons, List.not_mem_nil, or_false] at hp
  rcases hp with rfl | rfl | rfl | rfl | rfl | rfl | rfl | rfl
  · rw [rowQ_7]; exact pieceQ x0 x1 x2 7 7 rfl inb_S8x1024x256_S1x1024x256_7_0_0 inb_S8x256_S1x256_7_0 inb_S256x256_S256x256_0_0 x
  · rw [rowQ_6]; exact pieceQ x0 x1 x2 6 6 rfl inb_S8x1024x256_S1x1024x256_6_0_0 inb_S8x256_S1x256_6_0 inb_S256x256_S256x256_0_0 x
  · rw [rowQ_5]; exact pieceQ x0 x1 x2 5 5 rfl inb_S8x1024x256_S1x1024x256_5_0_0 inb_S8x256_S1x256_5_0 inb_S256x256_S256x256_0_0 x
  · rw [rowQ_4]; exact pieceQ x0 x1 x2 4 4 rfl inb_S8x1024x256_S1x1024x256_4_0_0 inb_S8x256_S1x256_4_0 inb_S256x256_S256x256_0_0 x
  · rw [rowQ_3]; exact pieceQ x0 x1 x2 3 3 rfl inb_S8x1024x256_S1x1024x256_3_0_0 inb_S8x256_S1x256_3_0 inb_S256x256_S256x256_0_0 x
  · rw [rowQ_2]; exact pieceQ x0 x1 x2 2 2 rfl inb_S8x1024x256_S1x1024x256_2_0_0 inb_S8x256_S1x256_2_0 inb_S256x256_S256x256_0_0 x
  · rw [rowQ_1]; exact pieceQ x0 x1 x2 1 1 rfl inb_S8x1024x256_S1x1024x256_1_0_0 inb_S8x256_S1x256_1_0 inb_S256x256_S256x256_0_0 x
  · exact pieceQ x0 x1 x2 0 0 rfl inb_S8x1024x256_S1x1024x256_0_0_0 inb_S8x256_S1x256_0_0 inb_S256x256_S256x256_0_0 x

/-- The second output block after the body: the attended values of the point's eight batch elements. -/
theorem out4_eq : out0_4 x0 x1 x2 = CoAtt.AttV x0 x1 x2 := by
  funext y
  unfold out0_4
  refine View.canon_apply_of_pieces (Val := Elt Ideal) (CoAtt.AttV x0 x1 x2) _ ?_ y (cover0_4 _ _ _ _ _ _ _ _ y)
  intro p hp x
  simp only [List.mem_cons, List.not_mem_nil, or_false] at hp
  rcases hp with rfl | rfl | rfl | rfl | rfl | rfl | rfl | rfl
  · rw [rowV_7]; exact pieceV x0 x1 x2 7 7 rfl inb_S8x1024x256_S1x1024x256_7_0_0 inb_S8x256_S1x256_7_0 inb_S256x256_S256x256_0_0 x
  · rw [rowV_6]; exact pieceV x0 x1 x2 6 6 rfl inb_S8x1024x256_S1x1024x256_6_0_0 inb_S8x256_S1x256_6_0 inb_S256x256_S256x256_0_0 x
  · rw [rowV_5]; exact pieceV x0 x1 x2 5 5 rfl inb_S8x1024x256_S1x1024x256_5_0_0 inb_S8x256_S1x256_5_0 inb_S256x256_S256x256_0_0 x
  · rw [rowV_4]; exact pieceV x0 x1 x2 4 4 rfl inb_S8x1024x256_S1x1024x256_4_0_0 inb_S8x256_S1x256_4_0 inb_S256x256_S256x256_0_0 x
  · rw [rowV_3]; exact pieceV x0 x1 x2 3 3 rfl inb_S8x1024x256_S1x1024x256_3_0_0 inb_S8x256_S1x256_3_0 inb_S256x256_S256x256_0_0 x
  · rw [rowV_2]; exact pieceV x0 x1 x2 2 2 rfl inb_S8x1024x256_S1x1024x256_2_0_0 inb_S8x256_S1x256_2_0 inb_S256x256_S256x256_0_0 x
  · rw [rowV_1]; exact pieceV x0 x1 x2 1 1 rfl inb_S8x1024x256_S1x1024x256_1_0_0 inb_S8x256_S1x256_1_0 inb_S256x256_S256x256_0_0 x
  · exact pieceV x0 x1 x2 0 0 rfl inb_S8x1024x256_S1x1024x256_0_0_0 inb_S8x256_S1x256_0_0 inb_S256x256_S256x256_0_0 x

end Cert.KernelIdeal.BlockValue

end
-- ==== Proof.KernelFinal.lean ====
/-
  The kernel's two result arrays after the run, at the ideal values.

  Grid point t holds batch elements 8t … 8t + 7: its blocks of q and v are rows 8t … 8t + 7 of the two arrays, the weight
  is whole, and it writes back rows 8t … 8t + 7 of each result. What it writes is the attended queries (values) of its
  eight elements, which depend on those elements' rows only; so it writes block t of the [64, 256] array of attended
  queries (values) of the whole arrays. The eight points cover every row, hence each result array is that array.
-/
import proofs.«130354_j44083544326830_1_alg».proof.Proof.Gen.KernelIdeal.Value
import proofs.«130354_j44083544326830_1_alg».proof.Proof.KernelBlock

noncomputable section

open scoped BigOperators

namespace Cert.KernelIdeal.FinalValue

open Cert.KernelIdeal Cert.KernelIdeal.Gen Cert.KernelIdeal.BlockValue Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The query array, the value array and the weight as the region finds them. -/
abbrev Qarr (c : Dev nD) : Vec Ideal S64x1024x256 .f32 := V m c main_arg0
abbrev Varr (c : Dev nD) : Vec Ideal S64x1024x256 .f32 := V m c main_arg1
abbrev Warr (c : Dev nD) : Vec Ideal S256x256 .f32 := V m c main_arg2

/-- Point t's blocks of them. -/
abbrev qblk (c : Dev nD) (t : Fin cfg0.N) : Vec Ideal S8x1024x256 .f32 := iblk m c 0 t
abbrev vblk (c : Dev nD) (t : Fin cfg0.N) : Vec Ideal S8x1024x256 .f32 := iblk m c 1 t
abbrev wblk (c : Dev nD) (t : Fin cfg0.N) : Vec Ideal S256x256 .f32 := iblk m c 2 t

/-- The printed index maps, decided over the eight points: the two input blocks move with the output blocks along the
    batch axis and nowhere else, the weight does not move, and the output blocks are the points' own. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Batch element 8t + b, as an index of the arrays' leading axis. -/
abbrev elt (t : Fin cfg0.N) (b : Fin 8) : Fin 64 := ⟨t.val * 8 + b.val, by have := t.isLt; have := b.isLt; show t.val * 8 + b.val < 64; have h8 : cfg0.N = 8 := rfl; omega⟩

theorem qblk_apply (c : Dev nD) (t : Fin cfg0.N) (b : Fin 8) (r : Fin 1024) (e : Fin 256) :
    qblk m c t (ix3 b r e) = Qarr m c (ix3 (elt t b) r e) := by
  obtain ⟨e0, e1, e2, -⟩ := idx_facts t
  show V m c main_arg0 (((cfg0.win 0).blk t).view.emb (ix3 b r e)) = V m c main_arg0 (ix3 (elt t b) r e)
  refine congrArg (V m c main_arg0) (funext fun a => Fin.ext ?_)
  match a with
  | ⟨0, _⟩ => show win0_0.index t (0 : Fin 3) * 8 + 1 * b.val = t.val * 8 + b.val; omega
  | ⟨1, _⟩ => show win0_0.index t (1 : Fin 3) * 1024 + 1 * r.val = r.val; omega
  | ⟨2, _⟩ => show win0_0.index t (2 : Fin 3) * 256 + 1 * e.val = e.val; omega

theorem vblk_apply (c : Dev nD) (t : Fin cfg0.N) (b : Fin 8) (r : Fin 1024) (e : Fin 256) :
    vblk m c t (ix3 b r e) = Varr m c (ix3 (elt t b) r e) := by
  obtain ⟨-, -, -, e0, e1, e2, -⟩ := idx_facts t
  show V m c main_arg1 (((cfg0.win 1).blk t).view.emb (ix3 b r e)) = V m c main_arg1 (ix3 (elt t b) r e)
  refine congrArg (V m c main_arg1) (funext fun a => Fin.ext ?_)
  match a with
  | ⟨0, _⟩ => show win0_1.index t (0 : Fin 3) * 8 + 1 * b.val = t.val * 8 + b.val; omega
  | ⟨1, _⟩ => show win0_1.index t (1 : Fin 3) * 1024 + 1 * r.val = r.val; omega
  | ⟨2, _⟩ => show win0_1.index t (2 : Fin 3) * 256 + 1 * e.val = e.val; omega

theorem wblk_apply (c : Dev nD) (t : Fin cfg0.N) (a e : Fin 256) : wblk m c t (ix2 a e) = Warr m c (ix2 a e) := by
  obtain ⟨-, -, -, -, -, -, e0, e1, -⟩ := idx_facts t
  show V m c main_arg2 (((cfg0.win 2).blk t).view.emb (ix2 a e)) = V m c main_arg2 (ix2 a e)
  refine congrArg (V m c main_arg2) (funext fun x => Fin.ext ?_)
  match x with
  | ⟨0, _⟩ => show win0_2.index t (0 : Fin 2) * 256 + 1 * a.val = a.val; omega
  | ⟨1, _⟩ => show win0_2.index t (1 : Fin 2) * 256 + 1 * e.val = e.val; omega

/-- Entry (b, d) of point t's first output block sits at (8t + b, d) of the first result array. -/
theorem emb3 (t : Fin cfg0.N) (b : Fin 8) (d : Fin 256) : ((cfg0.win 3).blk t).view.emb (ix2 b d) = ix2 (elt t b) d := by
  obtain ⟨-, -, -, -, -, -, -, -, e0, e1, -⟩ := idx_facts t
  refine funext fun a => Fin.ext ?_
  match a with
  | ⟨0, _⟩ => show win0_3.index t (0 : Fin 2) * 8 + 1 * b.val = t.val * 8 + b.val; omega
  | ⟨1, _⟩ => show win0_3.index t (1 : Fin 2) * 256 + 1 * d.val = d.val; omega

/-- The same for the second output block and the second result array. -/
theorem emb4 (t : Fin cfg0.N) (b : Fin 8) (d : Fin 256) : ((cfg0.win 4).blk t).view.emb (ix2 b d) = ix2 (elt t b) d := by
  obtain ⟨-, -, -, -, -, -, -, -, -, -, e0, e1⟩ := idx_facts t
  refine funext fun a => Fin.ext ?_
  match a with
  | ⟨0, _⟩ => show win0_4.index t (0 : Fin 2) * 8 + 1 * b.val = t.val * 8 + b.val; omega
  | ⟨1, _⟩ => show win0_4.index t (1 : Fin 2) * 256 + 1 * d.val = d.val; omega

theorem rowsQ_eq (c : Dev nD) (t : Fin cfg0.N) (b : Fin 8) : CoAtt.rows (qblk m c t) b = CoAtt.rows (Qarr m c) (elt t b) :=
  funext fun r => funext fun e => qblk_apply m c t b r e
theorem rowsV_eq (c : Dev nD) (t : Fin cfg0.N) (b : Fin 8) : CoAtt.rows (vblk m c t) b = CoAtt.rows (Varr m c) (elt t b) :=
  funext fun r => funext fun e => vblk_apply m c t b r e
theorem matW_eq (c : Dev nD) (t : Fin cfg0.N) : CoAtt.mat (wblk m c t) = CoAtt.mat (Warr m c) :=
  funext fun a => funext fun e => wblk_apply m c t a e

/-- WHAT POINT t WRITES BACK to the first result: block t of the attended queries of the whole arrays. -/
theorem flushed3_eq (c : Dev nD) (t : Fin cfg0.N) :
    (dats m 0 c).flushed 3 t = ((cfg0.win 3).blk t).view.read (Elt Ideal) (CoAtt.AttQ (Qarr m c) (Varr m c) (Warr m c)) := by
  rw [Value.flushed3, out3_eq]
  funext j
  obtain ⟨b, d, rfl⟩ : ∃ (b : Fin 8) (d : Fin 256), j = ix2 b d := ⟨j 0, j 1, eq_ix2 j⟩
  show CoAtt.AttQ (qblk m c t) (vblk m c t) (wblk m c t) (ix2 b d)
    = CoAtt.AttQ (Qarr m c) (Varr m c) (Warr m c) (((cfg0.win 3).blk t).view.emb (ix2 b d))
  rw [emb3]
  show CoAtt.attQ (CoAtt.rows (qblk m c t) b) (CoAtt.rows (vblk m c t) b) (CoAtt.mat (wblk m c t)) d
    = CoAtt.attQ (CoAtt.rows (Qarr m c) (elt t b)) (CoAtt.rows (Varr m c) (elt t b)) (CoAtt.mat (Warr m c)) d
  rw [rowsQ_eq, rowsV_eq, matW_eq]

/-- WHAT POINT t WRITES BACK to the second result: block t of the attended values of the whole arrays. -/
theorem flushed4_eq (c : Dev nD) (t : Fin cfg0.N) :
    (dats m 0 c).flushed 4 t = ((cfg0.win 4).blk t).view.read (Elt Ideal) (CoAtt.AttV (Qarr m c) (Varr m c) (Warr m c)) := by
  rw [Value.flushed4, out4_eq]
  funext j
  obtain ⟨b, d, rfl⟩ : ∃ (b : Fin 8) (d : Fin 256), j = ix2 b d := ⟨j 0, j 1, eq_ix2 j⟩
  show CoAtt.AttV (qblk m c t) (vblk m c t) (wblk m c t) (ix2 b d)
    = CoAtt.AttV (Qarr m c) (Varr m c) (Warr m c) (((cfg0.win 4).blk t).view.emb (ix2 b d))
  rw [emb4]
  show CoAtt.attV (CoAtt.rows (qblk m c t) b) (CoAtt.rows (vblk m c t) b) (CoAtt.mat (wblk m c t)) d
    = CoAtt.attV (CoAtt.rows (Qarr m c) (elt t b)) (CoAtt.rows (Varr m c) (elt t b)) (CoAtt.mat (Warr m c)) d
  rw [rowsQ_eq, rowsV_eq, matW_eq]

/-! ## The cover -/

/-- An index of the first result is in point t's block iff each coordinate is in the block's range on its axis. -/
theorem mem_blk3 (t : Fin cfg0.N) (i : S64x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v0_0).slice (win0_3.rect t)).set ↔ _
  rw [View.set_slice_whole, Rect.mem_set_unit]
  exact Iff.rfl

theorem mem_blk4 (t : Fin cfg0.N) (i : S64x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v0_1).slice (win0_4.rect t)).set ↔ _
  rw [View.set_slice_whole, Rect.mem_set_unit]
  exact Iff.rfl

/-- Row i of a result is written back by point i / 8. -/
theorem cover3 (i : S64x256.Idx) : ∃ t : Fin cfg0.N, (cfg0.win 3).flush t = true ∧ i ∈ ((cfg0.win 3).blk t).view.set := by
  have hi0 : (i 0).val < 64 := (i 0).isLt
  have hi1 : (i 1).val < 256 := (i 1).isLt
  have h8 : cfg0.N = 8 := rfl
  let t : Fin cfg0.N := ⟨(i 0).val / 8, by omega⟩
  have ht : t.val = (i 0).val / 8 := rfl
  obtain ⟨-, -, -, -, -, -, -, -, e0, e1, -⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

theorem cover4 (i : S64x256.Idx) : ∃ t : Fin cfg0.N, (cfg0.win 4).flush t = true ∧ i ∈ ((cfg0.win 4).blk t).view.set := by
  have hi0 : (i 0).val < 64 := (i 0).isLt
  have hi1 : (i 1).val < 256 := (i 1).isLt
  have h8 : cfg0.N = 8 := rfl
  let t : Fin cfg0.N := ⟨(i 0).val / 8, by omega⟩
  have ht : t.val = (i 0).val / 8 := rfl
  obtain ⟨-, -, -, -, -, -, -, -, -, -, e0, e1⟩ := idx_facts t
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-! ## The arrays after the run, and the run -/

theorem final3 (c : Dev nD) : (dats m 0 c).arrAt 3 cfg0.N = CoAtt.AttQ (Qarr m c) (Varr m c) (Warr m c) :=
  (dats m 0 c).arrAt_eq_of_cover 3 (CoAtt.AttQ (Qarr m c) (Varr m c) (Warr m c)) (fun t _ => flushed3_eq m c t) cover3

theorem final4 (c : Dev nD) : (dats m 0 c).arrAt 4 cfg0.N = CoAtt.AttV (Qarr m c) (Varr m c) (Warr m c) :=
  (dats m 0 c).arrAt_eq_of_cover 4 (CoAtt.AttV (Qarr m c) (Varr m c) (Warr m c)) (fun t _ => flushed4_eq m c t) cover4

/-- The kernel's run: every weakly fair execution ends with the first result at the attended queries and the second at the
    attended values of the argument arrays, the arguments unchanged. -/
theorem run : θ_run defs (onTc (τ := τ) (main (F := Ideal))) ⟨m, fun _ => 0, ρ⟩ fun r => ∀ c : Dev nD,
      r.2.mem ((c : Thread nD τ).loc main_v0_0)
        = CoAtt.AttQ (m ((c : Thread nD τ).loc main_arg0)) (m ((c : Thread nD τ).loc main_arg1)) (m ((c : Thread nD τ).loc main_arg2))
      ∧ r.2.mem ((c : Thread nD τ).loc main_v0_1)
        = CoAtt.AttV (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.FinalValue

end
-- ==== Proof.RefValue.lean ====
/-
  The reference, read at an index, at the ideal values.

  Its two batched products give the score tanh (Σ_e (Σ_d q·w)·v) of every query row against every value row of every
  batch element. It takes the maximum of the score over the query axis and over the value axis, a stabilised softmax
  of each family of maxima (the same operations on two different inputs: read once, below, for any input), and the two
  batched products of the softmaxes with v and with q. A sum started from the zero word is the plain sum.
-/
import proofs.«130354_j44083544326830_1_alg».proof.Proof.Gen.ReferenceIdeal.Read
import proofs.«130354_j44083544326830_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 : (⟨S64x1024x256, .f32⟩ : BufTy).Contents (Elt Ideal)) (x2 : (⟨S256x256, .f32⟩ : BufTy).Contents (Elt Ideal))

/-- The score of query row i against value row j of batch element b. -/
abbrev sc (b : Fin 64) (i j : Fin 1024) : EReal := CoAtt.score (CoAtt.rows x0 b) (CoAtt.rows x1 b) (CoAtt.mat x2) i j

theorem score_apply (b : Fin 64) (i j : Fin 1024) : val_main_v2 (F := Ideal) x0 x1 x2 (ix3 b i j) = sc x0 x1 x2 b i j := by
  rw [val_main_v2_apply, val_main_v1_apply]
  unfold sc CoAtt.score
  show Ideal.tanh _ = Ideal.tanh _
  refine congrArg Ideal.tanh (Finset.sum_congr rfl fun e _ => ?_)
  rw [val_main_v0_apply]
  have e1 : ∀ d : Fin 256, lidx_main_v0 (lidx_main_v1 (ix3 b i j) e) d = ix3 b i d := fun d => funext fun a => Fin.ext (by
    match a with | ⟨0, _⟩ => rfl | ⟨1, _⟩ => rfl | ⟨2, _⟩ => rfl)
  have e2 : ∀ d : Fin 256, ridx_main_v0 (lidx_main_v1 (ix3 b i j) e) d = ix2 d e := fun d => funext fun a => Fin.ext (by
    match a with | ⟨0, _⟩ => rfl | ⟨1, _⟩ => rfl)
  have e3 : ridx_main_v1 (ix3 b i j) e = ix3 b j e := funext fun a => Fin.ext (by
    match a with | ⟨0, _⟩ => rfl | ⟨1, _⟩ => rfl | ⟨2, _⟩ => rfl)
  rw [e3]
  exact congrArg₂ (· * ·) (Finset.sum_congr rfl fun d _ => by rw [e1, e2]) rfl

/-! ## Where a reduced index sits -/

theorem lift_mid (h : S64x1024x1024.Reduces [1] S64x1024) (b : Fin 64) (j : Fin 1024) (k : Fin (S64x1024x1024.size 1)) :
    h.lift (ix2 b j) k = ix3 b (⟨k.val, k.isLt⟩ : Fin 1024) j := by
  funext c; apply Fin.ext
  fin_cases c <;> rfl

theorem lift_last (h : S64x1024x1024.Reduces [2] S64x1024) (b : Fin 64) (i : Fin 1024) (k : Fin (S64x1024x1024.size 2)) :
    h.lift (ix2 b i) k = ix3 b i (⟨k.val, k.isLt⟩ : Fin 1024) := by
  funext c; apply Fin.ext
  fin_cases c <;> rfl

theorem lift_row (h : S64x1x1024.Reduces [2] S64x1) (b : Fin 64) (k : Fin (S64x1x1024.size 2)) :
    h.lift (ix2 b (0 : Fin 1)) k = ix3 b (0 : Fin 1) (⟨k.val, k.isLt⟩ : Fin 1024) := by
  funext c; apply Fin.ext
  fin_cases c <;> rfl

/-! ## The maxima of the score along each axis -/

/-- Over the query axis, at value row j. -/
theorem colmax_apply (b : Fin 64) (j : Fin 1024) :
    val_main_v3 (F := Ideal) x0 x1 x2 (ix2 b j) = CoAtt.fmax fun i => sc x0 x1 x2 b i j := by
  unfold val_main_v3
  rw [Host.reduce_eq_fold_single FloatOps.maximumf _ _ reducesTo_S64x1024x1024_S64x1024_d1 (by decide) h_S_]
  unfold CoAtt.fmax
  exact congrArg (fun f => Finset.fold max (Ideal.ofBits .f32 0xFF800000#32) f (Finset.univ : Finset (Fin 1024)))
    (funext fun k => (congrArg (val_main_v2 (F := Ideal) x0 x1 x2) (lift_mid _ b j k)).trans (score_apply x0 x1 x2 b _ j))

/-- Over the value axis, at query row i. -/
theorem rowmax_apply (b : Fin 64) (i : Fin 1024) :
    val_main_v16 (F := Ideal) x0 x1 x2 (ix2 b i) = CoAtt.fmax fun j => sc x0 x1 x2 b i j := by
  unfold val_main_v16
  rw [Host.reduce_eq_fold_single FloatOps.maximumf _ _ reducesTo_S64x1024x1024_S64x1024_d2 (by decide) h_S_]
  unfold CoAtt.fmax
  exact congrArg (fun f => Finset.fold max (Ideal.ofBits .f32 0xFF800000#32) f (Finset.univ : Finset (Fin 1024)))
    (funext fun k => (congrArg (val_main_v2 (F := Ideal) x0 x1 x2) (lift_last _ b i k)).trans (score_apply x0 x1 x2 b i _))

/-! ## The host's softmax along the last axis of a [64, 1, 1024] array -/

/-- One number per batch element, repeated along the last axis. -/
theorem bc3 (z : (⟨S64x1x1, .f32⟩ : BufTy).Contents (Elt Ideal)) (b : Fin 64) (k : Fin 1024) :
    broadcastInDim S64x1x1024 ![0, 1, 2] bcast_S64x1x1_S64x1x1024_0_1_2 z (ix3 b (0 : Fin 1) k) = z (ix3 b (0 : Fin 1) (0 : Fin 1)) :=
  broadcastInDim_apply _ bcast_S64x1x1_S64x1x1024_0_1_2 z _ _ (fun a => match a with
    | ⟨0, _⟩ => by show b.val = if (64 : ℕ) = 1 then 0 else b.val; rw [if_neg (by decide)]
    | ⟨1, _⟩ => by show 0 = if (1 : ℕ) = 1 then 0 else _; rw [if_pos rfl]
    | ⟨2, _⟩ => by show 0 = if (1 : ℕ) = 1 then 0 else _; rw [if_pos rfl])

/-- A trailing unit axis added. -/
theorem bc2 (z : (⟨S64x1, .f32⟩ : BufTy).Contents (Elt Ideal)) (b : Fin 64) :
    broadcastInDim S64x1x1 ![0, 1] bcast_S64x1_S64x1x1_0_1 z (ix3 b (0 : Fin 1) (0 : Fin 1)) = z (ix2 b (0 : Fin 1)) :=
  broadcastInDim_apply _ bcast_S64x1_S64x1x1_0_1 z _ _ (fun a => match a with
    | ⟨0, _⟩ => by show b.val = if (64 : ℕ) = 1 then 0 else b.val; rw [if_neg (by decide)]
    | ⟨1, _⟩ => by show 0 = if (1 : ℕ) = 1 then 0 else _; rw [if_pos rfl])

/-- A scalar repeated everywhere. -/
theorem bc0 (z : (⟨S_, .f32⟩ : BufTy).Contents (Elt Ideal)) (i : S64x1.Idx) :
    broadcastInDim S64x1 ![] bcast_S_S64x1 z i = z ix0 :=
  broadcastInDim_apply _ bcast_S_S64x1 z i ix0 (fun a => a.elim0)

/-- The maximum along the last axis, folded from −∞. -/
theorem lastmax_apply (y : (⟨S64x1x1024, .f32⟩ : BufTy).Contents (Elt Ideal)) (M : Fin 1024 → EReal) (b : Fin 64)
    (hM : ∀ k, y (ix3 b (0 : Fin 1) k) = M k) :
    Host.reduce (FloatOps.maximumf (F := Ideal) (φ := .f32)) y (constant (F := Ideal) S_ .f32 0xFF800000#32) reducesTo_S64x1x1024_S64x1_d2 h_S_ (ix2 b (0 : Fin 1))
      = CoAtt.fmax M := by
  rw [Host.reduce_eq_fold_single FloatOps.maximumf _ _ reducesTo_S64x1x1024_S64x1_d2 (by decide) h_S_]
  unfold CoAtt.fmax
  exact congrArg (fun f => Finset.fold max (Ideal.ofBits .f32 0xFF800000#32) f (Finset.univ : Finset (Fin 1024)))
    (funext fun k => (congrArg y (lift_row _ b k)).trans (hM _))

/-- The sum along the last axis, started from the zero word. -/
theorem lastsum_apply (y : (⟨S64x1x1024, .f32⟩ : BufTy).Contents (Elt Ideal)) (b : Fin 64) :
    Host.reduceAdd (F := Ideal) y (constant (F := Ideal) S_ .f32 0x00000000#32) reducesTo_S64x1x1024_S64x1_d2 h_S_ (ix2 b (0 : Fin 1))
      = ∑ k : Fin 1024, y (ix3 b (0 : Fin 1) k) := by
  simp only [Host.reduceAdd, Ideal.hostReduceAdd_def]
  rw [Ideal.hostReduceAdd_single reducesTo_S64x1x1024_S64x1_d2 (by decide)]
  show Ideal.ofBits .f32 0x00000000#32 + _ = _
  rw [Ideal.ofBits_zero_f32, zero_add]
  exact Finset.sum_congr rfl fun k _ => congrArg y (lift_row _ b k)

/-- The input with its maximum along the last axis subtracted, exponentiated. -/
def hostShift (y : (⟨S64x1x1024, .f32⟩ : BufTy).Contents (Elt Ideal)) : (⟨S64x1x1024, .f32⟩ : BufTy).Contents (Elt Ideal) :=
  Host.exp (F := Ideal) (subf y (broadcastInDim S64x1x1024 ![0, 1, 2] bcast_S64x1x1_S64x1x1024_0_1_2
    (broadcastInDim S64x1x1 ![0, 1] bcast_S64x1_S64x1x1_0_1
      (maximumf (broadcastInDim S64x1 ![] bcast_S_S64x1 (constant (F := Ideal) S_ .f32 0xFF800000#32))
        (Host.reduce (FloatOps.maximumf (F := Ideal) (φ := .f32)) y (constant (F := Ideal) S_ .f32 0xFF800000#32) reducesTo_S64x1x1024_S64x1_d2 h_S_)))))

/-- The host's softmax along the last axis. -/
def hostSoftmax (y : (⟨S64x1x1024, .f32⟩ : BufTy).Contents (Elt Ideal)) : (⟨S64x1x1024, .f32⟩ : BufTy).Contents (Elt Ideal) :=
  Host.divf (F := Ideal) (hostShift y) (broadcastInDim S64x1x1024 ![0, 1, 2] bcast_S64x1x1_S64x1x1024_0_1_2
    (broadcastInDim S64x1x1 ![0, 1] bcast_S64x1_S64x1x1_0_1
      (Host.reduceAdd (F := Ideal) (hostShift y) (constant (F := Ideal) S_ .f32 0x00000000#32) reducesTo_S64x1x1024_S64x1_d2 h_S_)))

theorem hostShift_apply (y : (⟨S64x1x1024, .f32⟩ : BufTy).Contents (Elt Ideal)) (M : Fin 1024 → EReal) (b : Fin 64)
    (hM : ∀ k, y (ix3 b (0 : Fin 1) k) = M k) (k : Fin 1024) :
    hostShift y (ix3 b (0 : Fin 1) k) = Ideal.exp (M k - max CoAtt.negInf (CoAtt.fmax M)) := by
  unfold hostShift
  show Ideal.exp (y (ix3 b (0 : Fin 1) k) - _) = _
  refine congrArg Ideal.exp (congrArg₂ (· - ·) (hM k) ?_)
  refine (bc3 _ b k).trans ((bc2 _ b).trans ?_)
  exact congrArg₂ max (bc0 _ _) (lastmax_apply y M b hM)

theorem hostSoftmax_apply (y : (⟨S64x1x1024, .f32⟩ : BufTy).Contents (Elt Ideal)) (M : Fin 1024 → EReal) (b : Fin 64)
    (hM : ∀ k, y (ix3 b (0 : Fin 1) k) = M k) (k : Fin 1024) :
    hostSoftmax y (ix3 b (0 : Fin 1) k) = CoAtt.smax M k := by
  unfold hostSoftmax CoAtt.smax
  show Ideal.div (hostShift y (ix3 b (0 : Fin 1) k)) _ = _
  refine congrArg₂ Ideal.div (hostShift_apply y M b hM k) ?_
  refine (bc3 _ b k).trans ((bc2 _ b).trans ((lastsum_apply _ b).trans ?_))
  exact Finset.sum_congr rfl fun k' _ => hostShift_apply y M b hM k'

/-! ## The two results -/

theorem v15_eq : val_main_v15 (F := Ideal) x0 x1 x2 = hostSoftmax (val_main_v4 (F := Ideal) x0 x1 x2) := rfl
theorem v28_eq : val_main_v28 (F := Ideal) x0 x1 x2 = hostSoftmax (val_main_v17 (F := Ideal) x0 x1 x2) := rfl

/-- The maxima over the query axis, laid along the last axis. -/
theorem v4_apply (b : Fin 64) (j : Fin 1024) :
    val_main_v4 (F := Ideal) x0 x1 x2 (ix3 b (0 : Fin 1) j) = CoAtt.fmax fun i => sc x0 x1 x2 b i j := by
  rw [val_main_v4_apply]
  exact (congrArg (val_main_v3 (F := Ideal) x0 x1 x2) (funext fun a => Fin.ext (by
    match a with | ⟨0, _⟩ => rfl | ⟨1, _⟩ => rfl))).trans (colmax_apply x0 x1 x2 b j)

/-- The maxima over the value axis, laid along the last axis. -/
theorem v17_apply (b : Fin 64) (i : Fin 1024) :
    val_main_v17 (F := Ideal) x0 x1 x2 (ix3 b (0 : Fin 1) i) = CoAtt.fmax fun j => sc x0 x1 x2 b i j := by
  rw [val_main_v17_apply]
  exact (congrArg (val_main_v16 (F := Ideal) x0 x1 x2) (funext fun a => Fin.ext (by
    match a with | ⟨0, _⟩ => rfl | ⟨1, _⟩ => rfl))).trans (rowmax_apply x0 x1 x2 b i)

/-- Position (b, d) of a [64, 256] array, in the [64, 1, 256] array it is a reshape of. -/
theorem idx30 (b : Fin 64) (d : Fin 256) : idx_main_v30 (ix2 b d) = ix3 b (0 : Fin 1) d := funext fun a => Fin.ext (by
  match a with
  | ⟨0, _⟩ => show (b.val * 256 + d.val) / 256 = b.val; have := d.isLt; omega
  | ⟨1, _⟩ => rfl
  | ⟨2, _⟩ => show (b.val * 256 + d.val) % 256 = d.val; have := d.isLt; omega)

theorem idx32 (b : Fin 64) (d : Fin 256) : idx_main_v32 (ix2 b d) = ix3 b (0 : Fin 1) d := funext fun a => Fin.ext (by
  match a with
  | ⟨0, _⟩ => show (b.val * 256 + d.val) / 256 = b.val; have := d.isLt; omega
  | ⟨1, _⟩ => rfl
  | ⟨2, _⟩ => show (b.val * 256 + d.val) % 256 = d.val; have := d.isLt; omega)

/-- The reference's second result is the attended values. -/
theorem attV_eq : val_main_v30 (F := Ideal) x0 x1 x2 = CoAtt.AttV x0 x1 x2 := by
  funext y
  obtain ⟨b, d, rfl⟩ : ∃ (b : Fin 64) (d : Fin 256), y = ix2 b d := ⟨y 0, y 1, eq_ix2 y⟩
  rw [val_main_v30_apply, idx30, val_main_v29_apply]
  unfold CoAtt.AttV CoAtt.attV
  refine Finset.sum_congr rfl fun k _ => ?_
  have el : lidx_main_v29 (ix3 b (0 : Fin 1) d) k = ix3 b (0 : Fin 1) k := funext fun a => Fin.ext (by
    match a with | ⟨0, _⟩ => rfl | ⟨1, _⟩ => rfl | ⟨2, _⟩ => rfl)
  have er : ridx_main_v29 (ix3 b (0 : Fin 1) d) k = ix3 b k d := funext fun a => Fin.ext (by
    match a with | ⟨0, _⟩ => rfl | ⟨1, _⟩ => rfl | ⟨2, _⟩ => rfl)
  rw [el, er, v15_eq, hostSoftmax_apply _ (fun j' => CoAtt.fmax fun i => sc x0 x1 x2 b i j') b (v4_apply x0 x1 x2 b)]

/-- The reference's first result is the attended queries. -/
theorem attQ_eq : val_main_v32 (F := Ideal) x0 x1 x2 = CoAtt.AttQ x0 x1 x2 := by
  funext y
  obtain ⟨b, d, rfl⟩ : ∃ (b : Fin 64) (d : Fin 256), y = ix2 b d := ⟨y 0, y 1, eq_ix2 y⟩
  rw [val_main_v32_apply, idx32, val_main_v31_apply]
  unfold CoAtt.AttQ CoAtt.attQ
  refine Finset.sum_congr rfl fun k _ => ?_
  have el : lidx_main_v31 (ix3 b (0 : Fin 1) d) k = ix3 b (0 : Fin 1) k := funext fun a => Fin.ext (by
    match a with | ⟨0, _⟩ => rfl | ⟨1, _⟩ => rfl | ⟨2, _⟩ => rfl)
  have er : ridx_main_v31 (ix3 b (0 : Fin 1) d) k = ix3 b k d := funext fun a => Fin.ext (by
    match a with | ⟨0, _⟩ => rfl | ⟨1, _⟩ => rfl | ⟨2, _⟩ => rfl)
  rw [el, er, v28_eq, hostSoftmax_apply _ (fun i' => CoAtt.fmax fun j => sc x0 x1 x2 b i' j) b (v17_apply x0 x1 x2 b)]

end Cert.ReferenceIdeal.RefValue

end
-- ==== Proof.lean ====
/-
  Bilinear co-attention over 64 batch elements: a kernel that treats eight batch elements per grid point against the
  plain array program.

  For each batch element, with query rows q, value rows v and weight w, both programs form the score
  tanh ((q·w)·vᵀ), its maxima along each axis, the stabilised softmax of each family of maxima, and the sums of the rows
  of q and of v weighted by the two softmaxes. At the extended reals a change of float format is the identity, a matrix
  product into a zero accumulator is the plain sum of products, and a sum started from zero is the plain sum; both
  programs fold their maxima from −∞ and spell the softmax the same way. So each result of the kernel and the matching
  result of the reference are the same function of the three argument arrays, index by index, and no law beyond
  0 + x = x is used: the precondition is never opened.

  The kernel's side: the eight rows a point stores are the same term of that point's eight batch elements
  (KernelRows), that term read at an index is the attended query or value (KernelScore, KernelSoftmax, KernelRowValue),
  the rows tile the point's block (KernelBlock), and the eight blocks tile the array (KernelFinal). The reference's side is
  RefValue. The three frames are the generated ones; the idealization rewrote nothing, so there is nothing to preserve.
-/
import proofs.«130354_j44083544326830_1_alg».proof.Defs
import proofs.«130354_j44083544326830_1_alg».proof.Proof.Gen.Kernel
import proofs.«130354_j44083544326830_1_alg».proof.Proof.Gen.Kernel.Skeleton
import proofs.«130354_j44083544326830_1_alg».proof.Proof.Gen.Kernel.Launch
import proofs.«130354_j44083544326830_1_alg».proof.Proof.Gen.Kernel.Points
import proofs.«130354_j44083544326830_1_alg».proof.Proof.Gen.Kernel.Frame
import proofs.«130354_j44083544326830_1_alg».proof.Proof.Gen.KernelIdeal
import proofs.«130354_j44083544326830_1_alg».proof.Proof.Gen.KernelIdeal.Skeleton
import proofs.«130354_j44083544326830_1_alg».proof.Proof.Gen.KernelIdeal.Launch
import proofs.«130354_j44083544326830_1_alg».proof.Proof.Gen.KernelIdeal.Points
import proofs.«130354_j44083544326830_1_alg».proof.Proof.Gen.KernelIdeal.Frame
import proofs.«130354_j44083544326830_1_alg».proof.Proof.Gen.ReferenceIdeal
import proofs.«130354_j44083544326830_1_alg».proof.Proof.Gen.Pre_finite_inputs
import proofs.«130354_j44083544326830_1_alg».proof.Proof.Gen.KernelIdeal.Value
import proofs.«130354_j44083544326830_1_alg».proof.Proof.Gen.ReferenceIdeal.Run
import proofs.«130354_j44083544326830_1_alg».proof.Proof.Gen.ReferenceIdeal.Read
import proofs.«130354_j44083544326830_1_alg».proof.Proof.KernelFinal
import proofs.«130354_j44083544326830_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the attended queries and the attended values of the argument arrays. -/
theorem algebraic : Cert.algebraic_KernelIdeal_ReferenceIdeal := by
  intro m ρ m' ρ' _ hagree
  refine ⟨_, _, Cert.KernelIdeal.FinalValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v32_eq, Cert.ReferenceIdeal.RefValue.attQ_eq,
      (hagree c).1, (hagree c).2.1, (hagree c).2.2]
  · rw [(h c).2.1, Cert.ReferenceIdeal.Read.val_main_v30_eq, Cert.ReferenceIdeal.RefValue.attV_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
